-- ==== Defs.lean ====
def Pre_Kernel [hPre_any_inputs : Cert.Pre_any_inputs.Facts] (m : (ℓ : Loc Cert.Kernel.nD Cert.Kernel.τ Cert.Kernel.sig) → Buf (Elt Bits) ℓ) : Prop :=
  ∀ c : Dev Cert.Kernel.nD,
    (Cert.Pre_any_inputs.fn (F := Bits) (m ((c.tc : Thread Cert.Kernel.nD Cert.Kernel.τ).loc Cert.Kernel.main_arg0))) = (fun _ => 1#1)

def Pre_KernelIdeal [hPre_any_inputs : Cert.Pre_any_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_any_inputs.fn (F := Ideal) (m ((c.tc : Thread Cert.KernelIdeal.nD Cert.KernelIdeal.τ).loc Cert.KernelIdeal.main_arg0))) = (fun _ => 1#1)

def Pre_ReferenceIdeal [hPre_any_inputs : Cert.Pre_any_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_any_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_any_inputs : Cert.Pre_any_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_any_inputs : Cert.Pre_any_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_any_inputs : Cert.Pre_any_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_any_inputs : Cert.Pre_any_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_any_inputs : Cert.Pre_any_inputs.Facts),
    frame_Kernel (hKernel := hKernel) (hPre_any_inputs := hPre_any_inputs)
    ∧ frame_KernelIdeal (hKernelIdeal := hKernelIdeal) (hPre_any_inputs := hPre_any_inputs)
    ∧ frame_ReferenceIdeal (hReferenceIdeal := hReferenceIdeal) (hPre_any_inputs := hPre_any_inputs)
    ∧ preserves_Kernel_KernelIdeal
    ∧ algebraic_KernelIdeal_ReferenceIdeal (hKernelIdeal := hKernelIdeal) (hReferenceIdeal := hReferenceIdeal) (hPre_any_inputs := hPre_any_inputs)
-- ==== Pre_any_inputs.lean ====
abbrev S4096x50 : Shape := ⟨2, ![4096, 50]⟩
abbrev S_ : Shape := ⟨0, ![]⟩

class Facts : Prop where

variable [Facts]

def fn {F : FTy → Type} [FloatOps F] (main_arg0 : IVec S4096x50 32) : IVec S_ 1 :=
  let main_c : IVec S_ 1 := constantI S_ 1 1#1
  main_c
-- ==== Kernel.lean ====
abbrev S4096x50 : Shape := ⟨2, ![4096, 50]⟩
abbrev S4096x50x256 : Shape := ⟨3, ![4096, 50, 256]⟩
abbrev S128x50 : Shape := ⟨2, ![128, 50]⟩
abbrev S128x50x256 : Shape := ⟨3, ![128, 50, 256]⟩
abbrev S128x50x1 : Shape := ⟨3, ![128, 50, 1]⟩

abbrev nBuf : Space → Nat
  | .hbm => 2
  | .vmem => 4
  | .smem => 0
  | _ => 0

abbrev bufTy : (tb : Table) → Fin (tcTables nBuf tb) → BufTy
  | .hbm, ⟨0, _⟩ => ⟨S4096x50, .i32⟩
  | .hbm, ⟨1, _⟩ => ⟨S4096x50x256, .f32⟩
  | .local _ .vmem, ⟨0, _⟩ => ⟨S128x50, .i32⟩
  | .local _ .vmem, ⟨1, _⟩ => ⟨S128x50, .i32⟩
  | .local _ .vmem, ⟨2, _⟩ => ⟨S128x50x256, .f32⟩
  | .local _ .vmem, ⟨3, _⟩ => ⟨S128x50x256, .f32⟩
  | _, _ => ⟨S4096x50, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x50 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x50x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S128x50_S128x50_0_0 : ∀ a, (![0, 0] : Fin 2 → Nat) a + S128x50.size a ≤ S128x50.size a
  h_S128x50 : 0 < S128x50.numel
  iota_S128x50x256_d2_w32 : S128x50x256.Iotas .tc 32 [2]
  shapeCasts_S128x50_S128x50x1 : S128x50.ShapeCasts S128x50x1
  broadcasts_S128x50x1_S128x50x256 : S128x50x1.Broadcasts S128x50x256
  natLt_1_32 : 1 < 32
  inb_S128x50x256_S128x50x256_0_0_0 : ∀ a, (![0, 0, 0] : Fin 3 → Nat) a + S128x50x256.size a ≤ S128x50x256.size a
  h_S128x50x256 : 0 < S128x50x256.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x50.size a ≤ S4096x50.size a
  hwx0_0 : ∀ i : grid0.Coords, EltTy.bits .i32 = 32 ∨ (Rect.block (s := S4096x50) S128x50.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x50x256.size a ≤ S4096x50x256.size a
  hwx0_1 : ∀ i : grid0.Coords, EltTy.bits .f32 = 32 ∨ (Rect.block (s := S4096x50x256) S128x50x256.size (cc0_transform_1 i) (hinb0_1 i)).WholeWords (EltTy.packing .f32)

variable [Facts₀]

abbrev win0_0 : Pipeline.Window sig grid0 :=
  Pipeline.Window.ofSpec (Memref.whole main_arg0) S128x50.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x50x256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4096x50 : Shape := ⟨2, ![4096, 50]⟩
abbrev S4096x50x1 : Shape := ⟨3, ![4096, 50, 1]⟩
abbrev S1x1x256 : Shape := ⟨3, ![1, 1, 256]⟩
abbrev S4096x50x256 : Shape := ⟨3, ![4096, 50, 256]⟩

abbrev nBuf : Space → Nat
  | .hbm => 7
  | .vmem => 0
  | .smem => 0
  | _ => 0

abbrev bufTy : (tb : Table) → Fin (tcTables nBuf tb) → BufTy
  | .hbm, ⟨0, _⟩ => ⟨S4096x50, .i32⟩
  | .hbm, ⟨1, _⟩ => ⟨S4096x50x1, .i32⟩
  | .hbm, ⟨2, _⟩ => ⟨S1x1x256, .i32⟩
  | .hbm, ⟨3, _⟩ => ⟨S4096x50x256, .i32⟩
  | .hbm, ⟨4, _⟩ => ⟨S4096x50x256, .i32⟩
  | .hbm, ⟨5, _⟩ => ⟨S4096x50x256, .i1⟩
  | .hbm, ⟨6, _⟩ => ⟨S4096x50x256, .f32⟩
  | _, _ => ⟨S4096x50, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_v1 : Ref sig .tc := ⟨.hbm, 2, rfl⟩
abbrev main_call0_v2 : Ref sig .tc := ⟨.hbm, 3, rfl⟩
abbrev main_call0_v3 : Ref sig .tc := ⟨.hbm, 4, rfl⟩
abbrev main_call0_v4 : Ref sig .tc := ⟨.hbm, 5, rfl⟩
abbrev main_v0 : Ref sig .tc := ⟨.hbm, 6, rfl⟩

abbrev nD : Nat := 1
abbrev τ : Topo := Topo.v7x

variable {F : FTy → Type} [FloatOps F]

class Facts₀ : Prop where
  bcast_S4096x50_S4096x50x1_0_1 : S4096x50.BroadcastsInDim S4096x50x1 (![0, 1] : Fin 2 → Fin S4096x50x1.rank)
  bcast_S4096x50x1_S4096x50x256_0_1_2 : S4096x50x1.BroadcastsInDim S4096x50x256 (![0, 1, 2] : Fin 3 → Fin S4096x50x256.rank)
  bcast_S1x1x256_S4096x50x256_0_1_2 : S1x1x256.BroadcastsInDim S4096x50x256 (![0, 1, 2] : Fin 3 → Fin S4096x50x256.rank)

variable [Facts₀]

class Facts : Prop extends Facts₀ where

variable [Facts]
-- ==== Proof.OneHotSpec.lean ====
/-
  The one-hot encoding of an integer table, as ONE function of the table, index by index.

  For a table `x` of 4096 x 50 words and 256 classes, entry (r, s, n) of the encoding is 1 when the word
  `x (r, s)` IS the 32-bit word of `n`, and 0 otherwise: the 1-bit outcome of a word equality, read as an
  unsigned number (`hot`, `oneHot`). No range is asked of the table: a word that is the word of no
  `n < 256` (a negative entry, or one from 256 up) equals none of the 256 class words, so its row of the
  encoding is all zeros.

  A vector body that encodes a block of 128 rows casts the block to a trailing unit axis, broadcasts it along
  256 lanes, compares it with the lane iota, WIDENS the 1-bit outcome to a word and converts that word as a
  signed number. A bit widened without sign is 0 or 1 as a signed word too, so this is the unsigned
  conversion of the bit (the library's `sitofp_extui_eq_uitofp`); the cast and the broadcast only move the
  table's word to every lane of its row. `lane_term_apply` reads that expression at (p, s, n). Nothing here
  is arithmetic on the extended reals: the two values an entry takes are 0 and 1.
-/
import Idealize.ShloMosaic.Lib.ValueIdx
import Idealize.ShloMosaic.Lib.Pipeline.Value
import Idealize.ShloMosaic.Lib.KernelVsHost
import Idealize.ShloMosaic.PureOps.Ideal

noncomputable section

namespace Cert.OneHot

open Idealize.ShloMosaic Idealize.ShloMosaic.ValueIdx

/-- The table: 4096 rows of 50 positions. -/
abbrev Tbl : Shape := ⟨2, ![4096, 50]⟩
/-- The encoding: a row of 256 classes per table entry. -/
abbrev Enc : Shape := ⟨3, ![4096, 50, 256]⟩
/-- A block of 128 rows of the table. -/
abbrev Blk : Shape := ⟨2, ![128, 50]⟩
/-- That block with a trailing unit axis. -/
abbrev BlkCol : Shape := ⟨3, ![128, 50, 1]⟩
/-- The block's encoding. -/
abbrev BlkEnc : Shape := ⟨3, ![128, 50, 256]⟩

/-- One entry of the encoding: is the table's word the class's word? As an unsigned number, 1 or 0. -/
def hot (word : BitVec 32) (n : Nat) : Ideal .f32 :=
  FloatOps.uitofp (F := Ideal) .f32 (IntOp.cmpi .eq word (BitVec.ofNat 32 n))

/-- The one-hot encoding of the table `x`: entry (r, s, n) asks whether `x (r, s)` is the word of `n`. -/
def oneHot (x : IVec Tbl 32) : FVec Ideal Enc .f32 :=
  fun i => hot (x (ix2 (i 0) (i 1))) (i 2).val

variable {α : Type}

/-- A block cast to a trailing unit axis reads (p, s) at (p, s, 0): both are position `p * 50 + s` of the
    row-major order. -/
theorem colCast_apply (v : Blk.Idx → α) (h : Blk.ShapeCasts BlkCol) (p : Fin 128) (s : Fin 50) (u : Fin 1) :
    shapeCast BlkCol v h (ix3 p s u) = v (ix2 p s) :=
  shapeCast_apply v h _ _ (by
    have hu : u.val = 0 := by omega
    rw [Shape.rowMajor_val_three, Shape.rowMajor_val_two]
    show p.val * 50 + s.val = (p.val * 50 + s.val) * 1 + u.val
    rw [hu, Nat.mul_one, Nat.add_zero])

/-- The unit axis broadcast along the 256 lanes reads (p, s, 0) at every lane `n` of row (p, s). -/
theorem laneBcast_apply (v : BlkCol.Idx → α) (h : BlkCol.Broadcasts BlkEnc) (p : Fin 128) (s : Fin 50) (n : Fin 256) :
    broadcastTo BlkEnc v h (ix3 p s n) = v (ix3 p s (⟨0, Nat.one_pos⟩ : Fin 1)) :=
  broadcastTo_apply v h _ _ (fun a => match a with
    | ⟨0, _⟩ => by show p.val = if (128 : Nat) = 1 then 0 else p.val; rw [if_neg (by decide)]
    | ⟨1, _⟩ => by show s.val = if (50 : Nat) = 1 then 0 else s.val; rw [if_neg (by decide)]
    | ⟨2, _⟩ => by show 0 = if (1 : Nat) = 1 then 0 else n.val; rw [if_pos rfl])

/-- The body's expression of a block `v0` of the table, at lane `n` of row (p, s): the block's word at (p, s),
    carried to the lane by the cast and the broadcast, against the lane iota's word of `n`; the outcome widened
    and converted signed is the outcome converted unsigned. -/
theorem lane_term_apply (v0 : IVec Blk 32) (hi : BlkEnc.Iotas .tc 32 [2]) (hc : Blk.ShapeCasts BlkCol)
    (hb : BlkCol.Broadcasts BlkEnc) (hw : 1 < 32) (p : Fin 128) (s : Fin 50) (n : Fin 256) :
    (sitofp .f32 (extui 32 (cmpi .eq (broadcastTo BlkEnc (shapeCast BlkCol v0 hc) hb) (iota .tc BlkEnc 32 [2] hi)) hw)
      : FVec Ideal BlkEnc .f32) (ix3 p s n) = hot (v0 (ix2 p s)) n.val := by
  rw [sitofp_extui_eq_uitofp]
  show FloatOps.uitofp (F := Ideal) .f32 (IntOp.cmpi .eq (broadcastTo BlkEnc (shapeCast BlkCol v0 hc) hb (ix3 p s n))
      (iota .tc BlkEnc 32 [2] hi (ix3 p s n))) = _
  rw [laneBcast_apply, colCast_apply, iota_single_apply]
  rfl

end Cert.OneHot

end
-- ==== Proof.KernelBlocks.lean ====
/-
  What one grid point writes back is its block of the table's one-hot encoding.

  The grid has 32 points. Point `t` stages rows 128 t … 128 t + 127 of the table (all 50 positions) and
  writes back the same rows of the encoding (all 50 positions, all 256 classes): the two index maps agree on
  the row axis and are zero on the others. The body stores ONE value over its whole output block, the lane
  expression of the table block it loaded, and entry (p, s, n) of that value asks whether the block's word at
  (p, s) is the word of `n`. The block's word at (p, s) is the table's word at (128 t + p, s), and entry
  (p, s, n) of the output block is entry (128 t + p, s, n) of the array: so the block is the encoding of the
  table read through the block's rectangle.
-/
import proofs.«103317_g36386962932021_cont_8to1_b_175_2_alg».proof.Proof.Gen.KernelIdeal.Value
import proofs.«103317_g36386962932021_cont_8to1_b_175_2_alg».proof.Proof.OneHotSpec

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-- The body's stored value at lane `n` of row (p, s) of a table block `x0`: is the block's word there the
    word of `n`? -/
theorem payload_apply (x0 : Vec Ideal S128x50 .i32) (p : Fin 128) (s : Fin 50) (n : Fin 256) :
    k0_pay1 (F := Ideal) x0 (ix3 p s n) = Cert.OneHot.hot (x0 (ix2 p s)) n.val := by
  unfold k0_pay1
  exact Cert.OneHot.lane_term_apply x0 _ _ _ _ p s n

/-- The stored value as a function of the output block's index. -/
theorem payload_eq (x0 : Vec Ideal S128x50 .i32) :
    k0_pay1 (F := Ideal) x0 = fun j : S128x50x256.Idx => Cert.OneHot.hot (x0 (ix2 (j 0) (j 1))) (j 2).val := by
  funext j
  obtain ⟨p, s, n, rfl⟩ : ∃ (p : Fin 128) (s : Fin 50) (n : Fin 256), j = ix3 p s n := ⟨j 0, j 1, j 2, eq_ix3 j⟩
  exact payload_apply x0 p s n

theorem origin3 : (![0, 0, 0] : Fin 3 → Nat) = fun _ => 0 := funext fun a => by fin_cases a <;> rfl
theorem origin2 : (![0, 0] : Fin 2 → Nat) = fun _ => 0 := funext fun a => by fin_cases a <;> rfl

/-- The two index maps, decided over the 32 points: the table's block and the encoding's block sit at the same
    block row, which is the point's number, and at block 0 of every other axis. -/
theorem idx_facts : ∀ t : Fin cfg0.N, win0_0.index t (0 : Fin 2) = win0_1.index t (0 : Fin 3)
    ∧ win0_0.index t (1 : Fin 2) = 0 ∧ win0_1.index t (1 : Fin 3) = 0 ∧ win0_1.index t (2 : Fin 3) = 0
    ∧ win0_1.index t (0 : Fin 3) = t.val :=
  (by decide +kernel : ∀ t : Fin grid0.N, _)

/-- WHAT POINT `t` WRITES BACK is block `t` of the encoding of the table as the region finds it. -/
theorem flushed_eq (c : Dev nD) (t : Fin cfg0.N) :
    (dats m 0 c).flushed 1 t
      = ((cfg0.win 1).blk t).view.read (Elt Ideal) (Cert.OneHot.oneHot (V m c main_arg0)) := by
  rw [Cert.KernelIdeal.Value.flushed1 m c t]
  unfold out0_1
  rw [View.canon_unit_zero origin3]
  simp only [View.ld_unit_zero (S := S128x50) origin2]
  obtain ⟨e0, e1, e2, e3, -⟩ := idx_facts t
  funext j
  show k0_pay1 (F := Ideal) (iblk m c 0 t) j
    = Cert.OneHot.oneHot (V m c main_arg0) (((cfg0.win 1).blk t).view.emb j)
  refine (congrFun (payload_eq (iblk m c 0 t)) j).trans ?_
  show Cert.OneHot.hot (V m c main_arg0 (((cfg0.win 0).blk t).view.emb (ix2 (j 0) (j 1)))) (j 2).val
    = Cert.OneHot.hot (V m c main_arg0 (ix2 ((((cfg0.win 1).blk t).view.emb j) 0) ((((cfg0.win 1).blk t).view.emb j) 1)))
        ((((cfg0.win 1).blk t).view.emb j) 2).val
  have hrow : ((cfg0.win 0).blk t).view.emb (ix2 (j 0) (j 1))
      = ix2 ((((cfg0.win 1).blk t).view.emb j) 0) ((((cfg0.win 1).blk t).view.emb j) 1) := by
    funext a; apply Fin.ext
    match a with
    | ⟨0, _⟩ => show win0_0.index t (0 : Fin 2) * 128 + 1 * (j 0).val = win0_1.index t (0 : Fin 3) * 128 + 1 * (j 0).val; omega
    | ⟨1, _⟩ => show win0_0.index t (1 : Fin 2) * 50 + 1 * (j 1).val = win0_1.index t (1 : Fin 3) * 50 + 1 * (j 1).val; omega
  have hlane : (j 2).val = ((((cfg0.win 1).blk t).view.emb j) 2).val := by
    show (j 2).val = win0_1.index t (2 : Fin 3) * 256 + 1 * (j 2).val; omega
  exact congrArg₂ Cert.OneHot.hot (congrArg (V m c main_arg0) hrow) hlane

end Cert.KernelIdeal.Blocks

end
-- ==== Proof.KernelArray.lean ====
/-
  The kernel's result array is the one-hot encoding of its argument.

  Every grid point writes back its block of the encoding (the block lemma), and the 32 blocks tile the array:
  row `r` of the encoding lies in the block of point `r / 128`, whose rows run from 128 (r / 128) up to
  128 (r / 128) + 127, and that block spans all 50 positions and all 256 classes. An array every index of
  which some written-back block covers ends holding the function the blocks are blocks of; so after the run
  the result array is the encoding of the table, and the table is as it was.
-/
import proofs.«103317_g36386962932021_cont_8to1_b_175_2_alg».proof.Proof.KernelBlocks

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-- An index of the encoding is in point `t`'s block iff each coordinate is in the block's range on its axis. -/
theorem mem_blk (t : Fin cfg0.N) (i : S4096x50x256.Idx) :
    i ∈ ((cfg0.win 1).blk t).view.set ↔ ∀ a : Fin 3, win0_1.index t a * S128x50x256.size a ≤ (i a).val
      ∧ (i a).val < win0_1.index t a * S128x50x256.size a + S128x50x256.size a := by
  show i ∈ ((View.whole main_v0).slice (win0_1.rect t)).set ↔ _
  rw [View.set_slice_whole, Rect.mem_set_unit]
  exact Iff.rfl

/-- THE BLOCKS TILE THE ARRAY: index (r, s, n) is in the block of point `r / 128`, which writes back. -/
theorem covered (i : S4096x50x256.Idx) :
    ∃ t : Fin cfg0.N, (cfg0.win 1).flush t = true ∧ i ∈ ((cfg0.win 1).blk t).view.set := by
  have hr : (i 0).val < 4096 := (i 0).isLt
  have hs : (i 1).val < 50 := (i 1).isLt
  have hn : (i 2).val < 256 := (i 2).isLt
  have hN : cfg0.N = 32 := N_0
  obtain ⟨t, ht⟩ : ∃ t : Fin cfg0.N, t.val = (i 0).val / 128 := ⟨⟨(i 0).val / 128, by omega⟩, rfl⟩
  obtain ⟨-, -, e1, e2, e0⟩ := idx_facts t
  refine ⟨t, flush0_1 t, ?_⟩
  rw [mem_blk]
  intro a
  match a with
  | ⟨0, _⟩ =>
    show win0_1.index t (0 : Fin 3) * 128 ≤ (i 0).val ∧ (i 0).val < win0_1.index t (0 : Fin 3) * 128 + 128
    omega
  | ⟨1, _⟩ =>
    show win0_1.index t (1 : Fin 3) * 50 ≤ (i 1).val ∧ (i 1).val < win0_1.index t (1 : Fin 3) * 50 + 50
    omega
  | ⟨2, _⟩ =>
    show win0_1.index t (2 : Fin 3) * 256 ≤ (i 2).val ∧ (i 2).val < win0_1.index t (2 : Fin 3) * 256 + 256
    omega

/-- THE ARRAY after the run: the encoding of the table as the region finds it. -/
theorem final (c : Dev nD) : (dats m 0 c).arrAt 1 cfg0.N = Cert.OneHot.oneHot (V m c main_arg0) :=
  (dats m 0 c).arrAt_eq_of_cover 1 (Cert.OneHot.oneHot (V m c main_arg0)) (fun t _ => flushed_eq m c t) covered

/-- The kernel's run, read: every weakly fair execution ends with the result array at the encoding of the
    argument table, and the table unchanged. -/
theorem run (ρ : Dev nD → PrngReg) :
    θ_run defs (onTc (τ := τ) (main (F := Ideal))) ⟨m, fun _ => 0, ρ⟩ fun r => ∀ c : Dev nD,
      r.2.mem ((c : Thread nD τ).loc main_v0) = Cert.OneHot.oneHot (m ((c : Thread nD τ).loc main_arg0))
      ∧ r.2.mem ((c : Thread nD τ).loc main_arg0) = m ((c : Thread nD τ).loc main_arg0) :=
  (θ_run defs _ _).mono (fun _ h c => ⟨(h c).1.trans (final m c), (h c).2⟩)
    (Cert.KernelIdeal.Value.run_blocks m ρ)

end Cert.KernelIdeal.Blocks

end
-- ==== Proof.ReferenceValue.lean ====
/-
  The reference's result is the one-hot encoding of its argument.

  The reference makes the table three-dimensional by a trailing unit axis, spreads that along 256 classes,
  spreads a one-axis iota of the classes over the table, compares the two and converts the 1-bit outcome
  unsigned. Read one operation at a time at an index (r, s, n): the doubly broadcast table reads the table at
  (r, s) — the two broadcasts' source indices composed are the pair of the first two coordinates —, the
  broadcast iota reads the word of `n`, and the comparison and the conversion act entry by entry. That is the
  entry `hot (x (r, s)) n` of the encoding.
-/
import proofs.«103317_g36386962932021_cont_8to1_b_175_2_alg».proof.Proof.Gen.ReferenceIdeal.Read
import proofs.«103317_g36386962932021_cont_8to1_b_175_2_alg».proof.Proof.OneHotSpec

noncomputable section

namespace Cert.ReferenceIdeal.RefValue

open Cert.ReferenceIdeal Cert.ReferenceIdeal.Read Idealize.ShloMosaic Idealize.ShloMosaic.ValueIdx

/-- The source index of the two table broadcasts composed: the first two coordinates. -/
theorem idx_table (i : S4096x50x256.Idx) : idx_main_call0_v0 (idx_main_call0_v2 i) = ix2 (i 0) (i 1) :=
  funext fun a => Fin.ext (by match a with | ⟨0, _⟩ => rfl | ⟨1, _⟩ => rfl)

/-- The reference's result stage, at the ideal values, is the encoding of the table. -/
theorem stage_eq_oneHot (x : IVec S4096x50 32) : val_main_v0 (F := Ideal) x = Cert.OneHot.oneHot x := by
  funext i
  rw [val_main_v0_apply, val_main_call0_v4_apply, val_main_call0_v2_apply, val_main_call0_v0_apply,
    val_main_call0_v3_apply, val_main_call0_v1_apply, idx_table]
  rfl

end Cert.ReferenceIdeal.RefValue

end
-- ==== Proof.lean ====
/-
  A one-hot encoding kernel against the reference's one-hot encoding, over the extended reals.

  The argument is a table of 4096 x 50 words; the result has a row of 256 numbers per table entry, entry
  (r, s, n) being 1 when the table's word at (r, s) is the word of `n` and 0 otherwise (`Cert.OneHot.oneHot`).

  The kernel works block by block: each of 32 grid points takes 128 rows of the table, spreads each word along
  256 lanes, compares it with the lane number, widens the 1-bit outcome to a word and converts the word as a
  signed number; the 32 blocks tile the result (`Cert.KernelIdeal.Blocks.run`). The reference spreads the
  whole table and a one-axis iota of the classes against each other, compares, and converts the bit as an
  unsigned number (`Cert.ReferenceIdeal.RefValue.stage_eq_oneHot`). A bit widened without sign is 0 or 1 read
  either way, so the two conversions give the same number, and both programs end at the same function of the
  table, for every table: a word outside the 256 classes gives a row of zeros in both. No arithmetic law is
  involved and nothing is asked of the input.

  The idealization rewrote no operation of the kernel, so that conjunct is `True`; the two kernel frames are
  the generated frame runs, and the reference's frame is its generated run with the result dropped.
-/
import proofs.«103317_g36386962932021_cont_8to1_b_175_2_alg».proof.Defs
import proofs.«103317_g36386962932021_cont_8to1_b_175_2_alg».proof.Proof.Gen.Kernel
import proofs.«103317_g36386962932021_cont_8to1_b_175_2_alg».proof.Proof.Gen.Kernel.Skeleton
import proofs.«103317_g36386962932021_cont_8to1_b_175_2_alg».proof.Proof.Gen.Kernel.Launch
import proofs.«103317_g36386962932021_cont_8to1_b_175_2_alg».proof.Proof.Gen.Kernel.Points
import proofs.«103317_g36386962932021_cont_8to1_b_175_2_alg».proof.Proof.Gen.Kernel.Frame
import proofs.«103317_g36386962932021_cont_8to1_b_175_2_alg».proof.Proof.Gen.KernelIdeal
import proofs.«103317_g36386962932021_cont_8to1_b_175_2_alg».proof.Proof.Gen.KernelIdeal.Skeleton
import proofs.«103317_g36386962932021_cont_8to1_b_175_2_alg».proof.Proof.Gen.KernelIdeal.Launch
import proofs.«103317_g36386962932021_cont_8to1_b_175_2_alg».proof.Proof.Gen.KernelIdeal.Points
import proofs.«103317_g36386962932021_cont_8to1_b_175_2_alg».proof.Proof.Gen.KernelIdeal.Frame
import proofs.«103317_g36386962932021_cont_8to1_b_175_2_alg».proof.Proof.Gen.ReferenceIdeal
import proofs.«103317_g36386962932021_cont_8to1_b_175_2_alg».proof.Proof.Gen.Pre_any_inputs
import proofs.«103317_g36386962932021_cont_8to1_b_175_2_alg».proof.Proof.Gen.KernelIdeal.Value
import proofs.«103317_g36386962932021_cont_8to1_b_175_2_alg».proof.Proof.Gen.ReferenceIdeal.Run
import proofs.«103317_g36386962932021_cont_8to1_b_175_2_alg».proof.Proof.Gen.ReferenceIdeal.Read
import proofs.«103317_g36386962932021_cont_8to1_b_175_2_alg».proof.Proof.KernelArray
import proofs.«103317_g36386962932021_cont_8to1_b_175_2_alg».proof.Proof.ReferenceValue
import Idealize.ShloMosaic.Adequacy
import Idealize.ShloMosaic.Init

noncomputable section

namespace Cert.Proof

open Idealize.ShloMosaic Idealize.SL.Sem

/-- The kernel as printed runs, and its table ends unchanged. -/
theorem frame_kernel : Cert.frame_Kernel := fun m ρ _ => Cert.Kernel.Gen.frame m ρ

/-- The idealized kernel runs, and its table ends unchanged. -/
theorem frame_kernelIdeal : Cert.frame_KernelIdeal := fun m ρ _ => Cert.KernelIdeal.Gen.frame m ρ

/-- The reference runs, and its table ends unchanged: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From tables that agree, both programs end at the encoding of the table: the kernel's result array block
    by block, the reference's as its last stage read at an index. -/
theorem algebraic : Cert.algebraic_KernelIdeal_ReferenceIdeal := by
  intro m ρ m' ρ' _ hagree
  refine ⟨fun c => Cert.OneHot.oneHot (m ((c.tc : Thread Cert.KernelIdeal.nD Cert.KernelIdeal.τ).loc Cert.KernelIdeal.main_arg0)),
    Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v0_eq, Cert.ReferenceIdeal.RefValue.stage_eq_oneHot, hagree c]

theorem claim : Cert.Claim :=
  ⟨Cert.Kernel.Gen.facts, Cert.KernelIdeal.Gen.facts, Cert.ReferenceIdeal.Gen.facts, Cert.Pre_any_inputs.Gen.facts,
    frame_kernel, frame_kernelIdeal, frame_referenceIdeal, trivial, algebraic⟩

end Cert.Proof

end
